-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S512x4096 : Shape := ⟨2, ![512, 4096]⟩
abbrev S512x16 : Shape := ⟨2, ![512, 16]⟩
abbrev S1024x4096 : Shape := ⟨2, ![1024, 4096]⟩
abbrev S1x512 : Shape := ⟨2, ![1, 512]⟩
abbrev S1024x512 : Shape := ⟨2, ![1024, 512]⟩

abbrev nBuf : Space → Nat
  | .hbm => 10
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S4096x4096, .bf16⟩
  | .hbm, ⟨8, _⟩ => ⟨S8192x4096, .f32⟩
  | .hbm, ⟨9, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x16, .f32⟩
  | .local _ .vmem, ⟨3, _⟩ => ⟨S512x16, .f32⟩
  | .local _ .vmem, ⟨4, _⟩ => ⟨S16x4096, .f32⟩
  | .local _ .vmem, ⟨5, _⟩ => ⟨S512x4096, .bf16⟩
  | .local _ .vmem, ⟨6, _⟩ => ⟨S512x4096, .bf16⟩
  | .local _ .vmem, ⟨7, _⟩ => ⟨S1024x4096, .f32⟩
  | .local _ .vmem, ⟨8, _⟩ => ⟨S1024x4096, .f32⟩
  | .local _ .vmem, ⟨9, _⟩ => ⟨S512x4096, .bf16⟩
  | .local _ .vmem, ⟨10, _⟩ => ⟨S512x4096, .bf16⟩
  | .local _ .vmem, ⟨11, _⟩ => ⟨S1x512, .f32⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x4096_S8192x4096 : S4x2048x4096.ShapeCasts S8192x4096
  shapeCasts_S4096_S1x4096 : S4096.ShapeCasts S1x4096
  inb_S512x16_S512x16_0_0 : ∀ a, (![0, 0] : Fin 2 → Nat) a + S512x16.size a ≤ S512x16.size a
  h_S512x16 : 0 < S512x16.numel
  inb_S16x4096_S16x4096_0_0 : ∀ a, (![0, 0] : Fin 2 → Nat) a + S16x4096.size a ≤ S16x4096.size a
  h_S16x4096 : 0 < S16x4096.numel
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  dot_S512x16_S16x4096_S512x4096_1_0_0_1_n_n_wf : DotDims.WF S512x16 S16x4096 S512x4096 [1] [0] [0] [1] [] []
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S4096x16.size a
  hwx0_1 : ∀ i : grid0.Coords, EltTy.bits .f32 = 32 ∨ (Rect.block (s := S4096x16) S512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .f32 = 32 ∨ (Rect.block (s := S8192x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x4096.size a
  hwx1_3 : ∀ i : grid1.Coords, EltTy.bits .f32 = 32 ∨ (Rect.block (s := S8192x4096) S1024x512.size (cc1_transform_3 i) (hinb1_3 i)).WholeWords (EltTy.packing .f32)

variable [Facts₀]

def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.MatmulAt.lean ====
/-
  The two products of the kernel read at one entry, over the extended reals.

  The weight-folding body multiplies a 512×16 block of the low-rank factor B by the whole 16×4096 factor A:
  entry (p, q) of the product is the sum over the rank index r of B[p, r] · A[r, q].
  The main body multiplies a 1024×4096 block of the activations by the TRANSPOSE of a 512×4096 block of the
  folded weight (both operands contract their second axis): entry (p, q) is the sum over d of x[p, d] · w[q, d].
  Each product accumulates into the zero array, so the entry is exactly that finite sum.
-/
import proofs.«151035_g43508018709279_pilotgen1_583_14_alg».proof.Proof.Gen.KernelIdeal
import Idealize.ShloMosaic.Lib.ValueIdx
import Idealize.ShloMosaic.PureOps.Ideal.Laws

noncomputable section

namespace Cert.KernelIdeal.Lora

open Cert.KernelIdeal Cert.KernelIdeal.Gen Idealize.ShloMosaic Idealize.ShloMosaic.ValueIdx

/-! ## B-block times A: the left operand is read at (row, r), the right at (r, column) -/

theorem lhsBA_0 (i : S512x4096.Idx) (q : dot_S512x16_S16x4096_S512x4096_1_0_0_1_n_n.contr.Idx) :
    (dot_S512x16_S16x4096_S512x4096_1_0_0_1_n_n.lhsIdx i q 0).val = (i 0).val := by
  unfold DotDims.lhsIdx
  rw [dif_neg (show ¬(0 : Fin S512x16.rank) ∈ dot_S512x16_S16x4096_S512x4096_1_0_0_1_n_n.lhsBatch by decide), dif_pos (show (0 : Fin S512x16.rank) ∈ dot_S512x16_S16x4096_S512x4096_1_0_0_1_n_n.lhsNonContracting by decide)]
  rfl
theorem lhsBA_1 (i : S512x4096.Idx) (q : dot_S512x16_S16x4096_S512x4096_1_0_0_1_n_n.contr.Idx) :
    (dot_S512x16_S16x4096_S512x4096_1_0_0_1_n_n.lhsIdx i q 1).val = (q ⟨0, by decide⟩).val :=
  dot_S512x16_S16x4096_S512x4096_1_0_0_1_n_n.lhsIdx_val_of_single rfl i q
theorem rhsBA_0 (i : S512x4096.Idx) (q : dot_S512x16_S16x4096_S512x4096_1_0_0_1_n_n.contr.Idx) :
    (dot_S512x16_S16x4096_S512x4096_1_0_0_1_n_n.rhsIdx i q 0).val = (q ⟨0, by decide⟩).val :=
  dot_S512x16_S16x4096_S512x4096_1_0_0_1_n_n.rhsIdx_val_of_single rfl i q
theorem rhsBA_1 (i : S512x4096.Idx) (q : dot_S512x16_S16x4096_S512x4096_1_0_0_1_n_n.contr.Idx) :
    (dot_S512x16_S16x4096_S512x4096_1_0_0_1_n_n.rhsIdx i q 1).val = (i 1).val := by
  unfold DotDims.rhsIdx
  rw [dif_neg (show ¬(1 : Fin S16x4096.rank) ∈ dot_S512x16_S16x4096_S512x4096_1_0_0_1_n_n.rhsBatch by decide), dif_pos (show (1 : Fin S16x4096.rank) ∈ dot_S512x16_S16x4096_S512x4096_1_0_0_1_n_n.rhsNonContracting by decide)]
  rfl

/-- Entry (p, q) of the block of B times A, accumulated into zero: the sum over the rank index. -/
theorem matmulBA_apply (b : FVec Ideal S512x16 .f32) (a : FVec Ideal S16x4096 .f32) (p : Fin 512) (q : Fin 4096) :
    matmul dot_S512x16_S16x4096_S512x4096_1_0_0_1_n_n none b a (constant (F := Ideal) S512x4096 .f32 0x00000000#32) (ix2 p q)
      = ∑ r : Fin 16, b (ix2 p r) * a (ix2 r q) := by
  simp only [matmul]
  rw [Ideal.matmul_constant_zero_apply, ← Equiv.sum_comp (contrEquiv1 dot_S512x16_S16x4096_S512x4096_1_0_0_1_n_n 16 rfl rfl).symm]
  refine Finset.sum_congr rfl fun k _ => ?_
  have hk := contrEquiv1_symm_val dot_S512x16_S16x4096_S512x4096_1_0_0_1_n_n 16 rfl rfl k
  have el : dot_S512x16_S16x4096_S512x4096_1_0_0_1_n_n.lhsIdx (ix2 p q) ((contrEquiv1 dot_S512x16_S16x4096_S512x4096_1_0_0_1_n_n 16 rfl rfl).symm k) = ix2 p k := funext fun a => Fin.ext (by
    match a with
    | ⟨0, _⟩ => exact lhsBA_0 _ _
    | ⟨1, _⟩ => exact (lhsBA_1 _ _).trans hk)
  have er : dot_S512x16_S16x4096_S512x4096_1_0_0_1_n_n.rhsIdx (ix2 p q) ((contrEquiv1 dot_S512x16_S16x4096_S512x4096_1_0_0_1_n_n 16 rfl rfl).symm k) = ix2 k q := funext fun a => Fin.ext (by
    match a with
    | ⟨0, _⟩ => exact (rhsBA_0 _ _).trans hk
    | ⟨1, _⟩ => exact rhsBA_1 _ _)
  rw [el, er]

/-! ## x-block times the transposed weight block: left read at (row, d), right at (column, d) -/

theorem lhsXW_0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhsXW_1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhsXW_0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhsXW_1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- Entry (p, q) of the activation block times the transposed weight block, accumulated into zero: the sum over the
    input feature d. -/
theorem matmulXW_apply (x : FVec Ideal S1024x4096 .bf16) (w : FVec Ideal S512x4096 .bf16) (p : Fin 1024) (q : Fin 512) :
    matmul dot_S1024x4096_S512x4096_S1024x512_1_1_0_0_n_n none x w (constant (F := Ideal) S1024x512 .f32 0x00000000#32) (ix2 p q)
      = ∑ d : Fin 4096, x (ix2 p d) * w (ix2 q d) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun a => Fin.ext (by
    match a with
    | ⟨0, _⟩ => exact lhsXW_0 _ _
    | ⟨1, _⟩ => exact (lhsXW_1 _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun a => Fin.ext (by
    match a with
    | ⟨0, _⟩ => exact rhsXW_0 _ _
    | ⟨1, _⟩ => exact (rhsXW_1 _ _).trans hk)
  rw [el, er]

end Cert.KernelIdeal.Lora

end
-- ==== Proof.Payloads.lean ====
/-
  What each kernel body stores, read at one entry, over the extended reals (where a change of float format is
  the identity).

  The weight-folding body stores, at entry (p, q) of its 512×4096 block,
      w[p, q] + (Σ_r b[p, r] · a[r, q]) · 2,
  w the block of W, b the block of B, a the whole factor A.
  The main body stores, at entry (p, q) of its 1024×512 block,
      Σ_d x[p, d] · w'[q, d] + β[0, q],
  x the block of activations, w' the block of the folded weight, β the block of the bias row.
-/
import proofs.«151035_g43508018709279_pilotgen1_583_14_alg».proof.Proof.Gen.KernelIdeal.Skeleton
import proofs.«151035_g43508018709279_pilotgen1_583_14_alg».proof.Proof.MatmulAt
import Idealize.ShloMosaic.Lib.Pipeline.Value
import Idealize.ShloMosaic.Lib.ValueLayout

noncomputable section

namespace Cert.KernelIdeal.Lora

open Cert.KernelIdeal Cert.KernelIdeal.Gen Idealize.ShloMosaic Idealize.ShloMosaic.ValueIdx

/-- The weight-folding body's stored value at (p, q). -/
theorem foldPayload_apply (b : FVec Ideal S512x16 .f32) (a : FVec Ideal S16x4096 .f32) (w : FVec Ideal S512x4096 .f32)
    (p : Fin 512) (q : Fin 4096) :
    k0_pay1 (F := Ideal) b a w (ix2 p q)
      = w (ix2 p q) + (∑ r : Fin 16, b (ix2 p r) * a (ix2 r q)) * Ideal.ofBits .f32 0x40000000#32 := by
  unfold k0_pay1
  show w (ix2 p q) + matmul dot_S512x16_S16x4096_S512x4096_1_0_0_1_n_n none b a (constant (F := Ideal) S512x4096 .f32 0x00000000#32) (ix2 p q)
      * Ideal.ofBits .f32 0x40000000#32 = _
  rw [matmulBA_apply]

/-- The main body's stored value at (p, q). -/
theorem densePayload_apply (x : FVec Ideal S1024x4096 .f32) (w : FVec Ideal S512x4096 .bf16) (β : FVec Ideal S1x512 .f32)
    (p : Fin 1024) (q : Fin 512) :
    k1_pay1 (F := Ideal) x w β (ix2 p q)
      = (∑ d : Fin 4096, x (ix2 p d) * w (ix2 q d)) + β (ix2 (0 : Fin 1) q) := by
  unfold k1_pay1
  rw [shapeCast_self, shapeCast_self, shapeCast_self]
  show matmul dot_S1024x4096_S512x4096_S1024x512_1_1_0_0_n_n none (truncf .bf16 x bitsLt_bf16_f32) w (constant (F := Ideal) S1024x512 .f32 0x00000000#32) (ix2 p q)
      + broadcastTo S1024x512 β broadcasts_S1x512_S1024x512 (ix2 p q) = _
  rw [matmulXW_apply, broadcastTo_1b_ab_apply]
  rfl

end Cert.KernelIdeal.Lora

end
-- ==== Proof.Spec.lean ====
/-
  The mathematics of the low-rank-adapted linear layer, with no program in sight.

  Inputs: activations x[b, s, d], a weight W[o, d], a bias β[o], and the two low-rank factors A[r, d] and B[o, r];
  the scale α / rank is the number 2. The layer's value at (b, s, o) can be written two ways.

  * FOLDED (what the kernel does): first fold the update into the weight,
      W'[o, d] = W[o, d] + (Σ_r B[o, r] · A[r, d]) · 2,
    then one product and the bias:  Σ_d x[b, s, d] · W'[o, d] + β[o].
  * TWO SKINNY PRODUCTS (what the reference does):
      (Σ_d x[b, s, d] · W[o, d] + β[o]) + (Σ_r (Σ_d x[b, s, d] · A[r, d]) · B[o, r]) · 2.

  They agree for REAL data: distribute x over the sum W + (…)·2, pull the factors through the finite sums and swap
  the two summations. On the extended reals distributivity fails at the infinities, so the law is proved for real
  numbers and carried to extended reals whose entries are all (coercions of) reals.
-/
import Idealize.ShloMosaic.PureOps.Ideal
import Idealize.ShloMosaic.Lib.ValueIdx
import Mathlib.Algebra.BigOperators.Ring.Finset
import Mathlib.Tactic.Ring

noncomputable section

namespace Cert.Lora

open Idealize.ShloMosaic Idealize.ShloMosaic.ValueIdx

/-! ## The scale -/

/-- The f32 word of the scale α / rank = 32 / 16 denotes the real number 2. -/
theorem scale_eq : Ideal.ofBits .f32 0x40000000#32 = ((2 : ℝ) : EReal) := by
  simp [Ideal.ofBits, Ideal.ieee, -EReal.coe_mul]; norm_num

/-! ## The layer, entry by entry -/

/-- Entry (o, d) of the folded weight W + (B·A)·2. -/
def foldedWeightAt (W : (⟨2, ![4096, 4096]⟩ : Shape).Idx → EReal) (B : (⟨2, ![4096, 16]⟩ : Shape).Idx → EReal)
    (A : (⟨2, ![16, 4096]⟩ : Shape).Idx → EReal) (o : Fin 4096) (d : Fin 4096) : EReal :=
  W (ix2 o d) + (∑ r : Fin 16, B (ix2 o r) * A (ix2 r d)) * Ideal.ofBits .f32 0x40000000#32

/-- The folded weight as an array. -/
def foldedWeight (W : (⟨2, ![4096, 4096]⟩ : Shape).Idx → EReal) (B : (⟨2, ![4096, 16]⟩ : Shape).Idx → EReal)
    (A : (⟨2, ![16, 4096]⟩ : Shape).Idx → EReal) : (⟨2, ![4096, 4096]⟩ : Shape).Idx → EReal :=
  fun i => foldedWeightAt W B A ⟨(i 0).val, (i 0).isLt⟩ ⟨(i 1).val, (i 1).isLt⟩

theorem foldedWeight_ix2 (W : (⟨2, ![4096, 4096]⟩ : Shape).Idx → EReal) (B : (⟨2, ![4096, 16]⟩ : Shape).Idx → EReal)
    (A : (⟨2, ![16, 4096]⟩ : Shape).Idx → EReal) (o : Fin 4096) (d : Fin 4096) :
    foldedWeight W B A (ix2 o d) = foldedWeightAt W B A o d := rfl

/-- Entry (row, o) of a dense layer on flattened rows: Σ_d X[row, d] · W'[o, d] + β[0, o], the bias as one row. -/
def denseAt (X : (⟨2, ![8192, 4096]⟩ : Shape).Idx → EReal) (W' : (⟨2, ![4096, 4096]⟩ : Shape).Idx → EReal)
    (β : (⟨2, ![1, 4096]⟩ : Shape).Idx → EReal) (row : Fin 8192) (o : Fin 4096) : EReal :=
  (∑ d : Fin 4096, X (ix2 row d) * W' (ix2 o d)) + β (ix2 (0 : Fin 1) o)

/-- The dense layer on flattened rows as an array. -/
def dense (X : (⟨2, ![8192, 4096]⟩ : Shape).Idx → EReal) (W' : (⟨2, ![4096, 4096]⟩ : Shape).Idx → EReal)
    (β : (⟨2, ![1, 4096]⟩ : Shape).Idx → EReal) : (⟨2, ![8192, 4096]⟩ : Shape).Idx → EReal :=
  fun i => denseAt X W' β ⟨(i 0).val, (i 0).isLt⟩ ⟨(i 1).val, (i 1).isLt⟩

theorem dense_ix2 (X : (⟨2, ![8192, 4096]⟩ : Shape).Idx → EReal) (W' : (⟨2, ![4096, 4096]⟩ : Shape).Idx → EReal)
    (β : (⟨2, ![1, 4096]⟩ : Shape).Idx → EReal) (row : Fin 8192) (o : Fin 4096) :
    dense X W' β (ix2 row o) = denseAt X W' β row o := rfl

/-- The layer's value at (b, s, o), in the FOLDED form. -/
def loraAt (x : (⟨3, ![4, 2048, 4096]⟩ : Shape).Idx → EReal) (W : (⟨2, ![4096, 4096]⟩ : Shape).Idx → EReal)
    (β : (⟨1, ![4096]⟩ : Shape).Idx → EReal) (A : (⟨2, ![16, 4096]⟩ : Shape).Idx → EReal)
    (B : (⟨2, ![4096, 16]⟩ : Shape).Idx → EReal) (b : Fin 4) (s : Fin 2048) (o : Fin 4096) : EReal :=
  (∑ d : Fin 4096, x (ix3 b s d) * foldedWeightAt W B A o d) + β (ix1 o)

/-- The layer as an array over [4, 2048, 4096]. -/
def lora (x : (⟨3, ![4, 2048, 4096]⟩ : Shape).Idx → EReal) (W : (⟨2, ![4096, 4096]⟩ : Shape).Idx → EReal)
    (β : (⟨1, ![4096]⟩ : Shape).Idx → EReal) (A : (⟨2, ![16, 4096]⟩ : Shape).Idx → EReal)
    (B : (⟨2, ![4096, 16]⟩ : Shape).Idx → EReal) : (⟨3, ![4, 2048, 4096]⟩ : Shape).Idx → EReal :=
  fun i => loraAt x W β A B ⟨(i 0).val, (i 0).isLt⟩ ⟨(i 1).val, (i 1).isLt⟩ ⟨(i 2).val, (i 2).isLt⟩

theorem lora_ix3 (x : (⟨3, ![4, 2048, 4096]⟩ : Shape).Idx → EReal) (W : (⟨2, ![4096, 4096]⟩ : Shape).Idx → EReal)
    (β : (⟨1, ![4096]⟩ : Shape).Idx → EReal) (A : (⟨2, ![16, 4096]⟩ : Shape).Idx → EReal)
    (B : (⟨2, ![4096, 16]⟩ : Shape).Idx → EReal) (b : Fin 4) (s : Fin 2048) (o : Fin 4096) :
    lora x W β A B (ix3 b s o) = loraAt x W β A B b s o := rfl

/-! ## The law: folding the update into the weight changes nothing, for real data -/

/-- Over the reals: Σ_d x_d (w_d + (Σ_r b_r a_{r d}) c) + β = (Σ_d x_d w_d + β) + (Σ_r (Σ_d x_d a_{r d}) b_r) c. -/
theorem fold_law_real {D R : Type} [Fintype D] [Fintype R] (x w : D → ℝ) (a : R → D → ℝ) (b : R → ℝ) (β c : ℝ) :
    (∑ d, x d * (w d + (∑ r, b r * a r d) * c)) + β
      = ((∑ d, x d * w d) + β) + (∑ r, (∑ d, x d * a r d) * b r) * c := by
  have h : ∑ d, x d * ((∑ r, b r * a r d) * c) = (∑ r, (∑ d, x d * a r d) * b r) * c := by
    simp only [Finset.sum_mul, Finset.mul_sum]
    rw [Finset.sum_comm]
    exact Finset.sum_congr rfl fun r _ => Finset.sum_congr rfl fun d _ => by ring
  simp only [mul_add, Finset.sum_add_distrib, h]
  ring

/-- A finite sum of reals, coerced, is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same law on the extended reals, when every number involved is real. -/
theorem fold_law {D R : Type} [Fintype D] [Fintype R] (x w : D → EReal) (a : R → D → EReal) (b : R → EReal) (β c : EReal)
    (hx : ∀ d, ∃ v : ℝ, x d = v) (hw : ∀ d, ∃ v : ℝ, w d = v) (ha : ∀ r d, ∃ v : ℝ, a r d = v)
    (hb : ∀ r, ∃ v : ℝ, b r = v) (hβ : ∃ v : ℝ, β = v) (hc : ∃ v : ℝ, c = v) :
    (∑ d, x d * (w d + (∑ r, b r * a r d) * c)) + β
      = ((∑ d, x d * w d) + β) + (∑ r, (∑ d, x d * a r d) * b r) * c := by
  choose x' hx' using hx
  choose w' hw' using hw
  choose a' ha' using ha
  choose b' hb' using hb
  obtain ⟨β', rfl⟩ := hβ
  obtain ⟨c', rfl⟩ := hc
  simp only [hx', hw', ha', hb']
  simp only [← EReal.coe_mul, ← coe_sum, ← EReal.coe_add]
  exact congrArg _ (fold_law_real x' w' a' b' β' c')

end Cert.Lora

end
-- ==== Proof.FoldRegion.lean ====
/-
  The first kernel region: the folded weight, as an array.

  The grid has 8 points; point t handles rows 512·t … 512·t + 511 of the weight: it reads that row block of W
  (all 4096 columns), the same row block of B (all 16 columns) and the whole of A, and writes back the same row
  block of the result. Each written block is the corresponding block of ONE function of the three arrays, the folded
  weight W + (B·A)·2, and the 8 row blocks tile the 4096 rows; so after the region the result array IS the folded
  weight of the arrays the region found.
-/
import proofs.«151035_g43508018709279_pilotgen1_583_14_alg».proof.Proof.Gen.KernelIdeal.Frame
import proofs.«151035_g43508018709279_pilotgen1_583_14_alg».proof.Proof.Payloads
import proofs.«151035_g43508018709279_pilotgen1_583_14_alg».proof.Proof.Spec

set_option maxRecDepth 16384

noncomputable section

namespace Cert.KernelIdeal.Lora

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The block indices of the four windows at a point, decided over the 8 points: the three row-blocked windows sit
    on the same row block, which is one of 0 … 7; every column index and the whole-array window's indices are 0. -/
theorem foldIdx : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 7 :=
  (by decide +kernel : ∀ t : Fin grid0.N, _)

/-- Every row block is some point's. -/
theorem foldOnto : ∀ k : Fin 8, ∃ t : Fin cfg0.N, win0_3.index t (0 : Fin 2) = k.val :=
  (by decide +kernel : ∀ k : Fin 8, ∃ t : Fin grid0.N, win0_3.index t (0 : Fin 2) = k.val)

/-- Entry (p, q) of the output block at point t sits at row 512·(row block) + p, column q of the array. -/
theorem foldEmb (t : Fin cfg0.N) (p : Fin 512) (q : Fin 4096) (h : win0_3.index t (0 : Fin 2) * 512 + p.val < 4096) :
    ((cfg0.win 3).blk t).view.emb (ix2 p q) = (ix2 ⟨win0_3.index t (0 : Fin 2) * 512 + p.val, h⟩ q : S4096x4096.Idx) := by
  obtain ⟨e00, e01, e10, e11, e20, e21, e31, e3⟩ := foldIdx t
  refine funext fun a => Fin.ext ?_
  match a with
  | ⟨0, _⟩ => show win0_3.index t (0 : Fin 2) * 512 + 1 * p.val = win0_3.index t (0 : Fin 2) * 512 + p.val; omega
  | ⟨1, _⟩ => show win0_3.index t (1 : Fin 2) * 4096 + 1 * q.val = q.val; omega

/-- The block of W at point t, read at (p, q). -/
theorem foldReadW (c : Dev nD) (t : Fin cfg0.N) (p : Fin 512) (h : win0_3.index t (0 : Fin 2) * 512 + p.val < 4096) (q : Fin 4096) :
    iblk0 V c 0 t (ix2 p q) = V c main_arg1 (ix2 ⟨win0_3.index t (0 : Fin 2) * 512 + p.val, h⟩ q) := by
  obtain ⟨e00, e01, e10, e11, e20, e21, e31, e3⟩ := foldIdx t
  show V c main_arg1 (((cfg0.win 0).blk t).view.emb (ix2 p q)) = _
  refine congrArg _ (funext fun a => Fin.ext ?_)
  match a with
  | ⟨0, _⟩ => show win0_0.index t (0 : Fin 2) * 512 + 1 * p.val = win0_3.index t (0 : Fin 2) * 512 + p.val; omega
  | ⟨1, _⟩ => show win0_0.index t (1 : Fin 2) * 4096 + 1 * q.val = q.val; omega

/-- The block of B at point t, read at (p, r). -/
theorem foldReadB (c : Dev nD) (t : Fin cfg0.N) (p : Fin 512) (h : win0_3.index t (0 : Fin 2) * 512 + p.val < 4096) (r : Fin 16) :
    iblk0 V c 1 t (ix2 p r) = V c main_arg4 (ix2 ⟨win0_3.index t (0 : Fin 2) * 512 + p.val, h⟩ r) := by
  obtain ⟨e00, e01, e10, e11, e20, e21, e31, e3⟩ := foldIdx t
  show V c main_arg4 (((cfg0.win 1).blk t).view.emb (ix2 p r)) = _
  refine congrArg _ (funext fun a => Fin.ext ?_)
  match a with
  | ⟨0, _⟩ => show win0_1.index t (0 : Fin 2) * 512 + 1 * p.val = win0_3.index t (0 : Fin 2) * 512 + p.val; omega
  | ⟨1, _⟩ => show win0_1.index t (1 : Fin 2) * 16 + 1 * r.val = r.val; omega

/-- The (whole-array) block of A at point t, read at (r, q). -/
theorem foldReadA (c : Dev nD) (t : Fin cfg0.N) (r : Fin 16) (q : Fin 4096) :
    iblk0 V c 2 t (ix2 r q) = V c main_arg3 (ix2 r q) := by
  obtain ⟨e00, e01, e10, e11, e20, e21, e31, e3⟩ := foldIdx t
  show V c main_arg3 (((cfg0.win 2).blk t).view.emb (ix2 r q)) = _
  refine congrArg _ (funext fun a => Fin.ext ?_)
  match a with
  | ⟨0, _⟩ => show win0_2.index t (0 : Fin 2) * 16 + 1 * r.val = r.val; omega
  | ⟨1, _⟩ => show win0_2.index t (1 : Fin 2) * 4096 + 1 * q.val = q.val; omega

/-- What the body stores at point t is that point's block of the folded weight. -/
theorem foldBlock (c : Dev nD) (t : Fin cfg0.N) :
    (k0_pay1 (F := Ideal) (iblk0 V c 1 t) (iblk0 V c 2 t) (iblk0 V c 0 t) : S512x4096.Idx → EReal)
      = fun j => Cert.Lora.foldedWeight (V c main_arg1) (V c main_arg4) (V c main_arg3) (((cfg0.win 3).blk t).view.emb j) := by
  funext j
  obtain ⟨p, q, rfl⟩ : ∃ (p : Fin 512) (q : Fin 4096), j = ix2 p q := ⟨j 0, j 1, eq_ix2 j⟩
  obtain ⟨e00, e01, e10, e11, e20, e21, e31, e3⟩ := foldIdx t
  have hrow : win0_3.index t (0 : Fin 2) * 512 + p.val < 4096 := by have := p.isLt; omega
  refine (foldPayload_apply (iblk0 V c 1 t) (iblk0 V c 2 t) (iblk0 V c 0 t) p q).trans ?_
  rw [foldEmb t p q hrow, Cert.Lora.foldedWeight_ix2]
  unfold Cert.Lora.foldedWeightAt
  rw [foldReadW V c t p hrow q]
  simp only [foldReadB V c t p hrow, foldReadA V c t]

/-- WHAT POINT t WRITES BACK is block t of the folded weight of the arrays the region found. -/
theorem foldFlushed (c : Dev nD) (t : Fin cfg0.N) :
    (dat0 V c).flushed 3 t = ((cfg0.win 3).blk t).view.read (Elt Ideal)
      (Cert.Lora.foldedWeight (V c main_arg1) (V c main_arg4) (V c main_arg3)) := by
  show (cfg0.win 3).cut (grid0.coords t) ((dat0 V c).after 3 t) = _
  rw [after0_3]
  unfold out0_3
  rw [View.canon_unit_zero zero_off]
  simp only [View.ld_unit_zero (S := S512x16) zero_off, View.ld_unit_zero (S := S16x4096) zero_off,
    View.ld_unit_zero (S := S512x4096) zero_off]
  exact foldBlock V c t

/-- An index of the result array is in point t's block iff each coordinate is in the block's range on its axis. -/
theorem foldMem (t : Fin cfg0.N) (i : S4096x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v2).slice (win0_3.rect t)).set ↔ _
  rw [View.set_slice_whole, Rect.mem_set_unit]
  exact Iff.rfl

/-- The 8 row blocks tile the array: row i₀ is in the block of the point on row block i₀ / 512. -/
theorem foldCover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := foldOnto ⟨(i 0).val / 512, by omega⟩
  have ht' : win0_3.index t (0 : Fin 2) = (i 0).val / 512 := ht
  obtain ⟨e00, e01, e10, e11, e20, e21, e31, e3⟩ := foldIdx t
  refine ⟨t, flush0_3 t, ?_⟩
  rw [foldMem]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 4096 ≤ (i 1).val ∧ (i 1).val < win0_3.index t (1 : Fin 2) * 4096 + 4096
    omega

/-- THE RESULT ARRAY after the first region is the folded weight of the arrays the region found. -/
theorem foldedArray (c : Dev nD) :
    (dat0 V c).arrAt 3 cfg0.N = Cert.Lora.foldedWeight (V c main_arg1) (V c main_arg4) (V c main_arg3) :=
  (dat0 V c).arrAt_eq_of_cover 3 _ (fun t _ => foldFlushed V c t) foldCover

end Cert.KernelIdeal.Lora

end
-- ==== Proof.DenseRegion.lean ====
/-
  The second kernel region: the dense layer on the flattened rows, as an array.

  The grid is 8 × 8; point (I, J) handles rows 1024·I … 1024·I + 1023 and output features 512·J … 512·J + 511: it
  reads that row block of the activations (all 4096 input features), rows 512·J … of the folded weight (all 4096
  columns) and columns 512·J … of the bias row, and writes back block (I, J) of the result. Each written block is
  the corresponding block of ONE function of the three arrays, Σ_d X[row, d] · W'[o, d] + β[0, o], and the 64 blocks
  tile the 8192 × 4096 result; so after the region the result array IS that function of the arrays the region found.
-/
import proofs.«151035_g43508018709279_pilotgen1_583_14_alg».proof.Proof.Gen.KernelIdeal.Frame
import proofs.«151035_g43508018709279_pilotgen1_583_14_alg».proof.Proof.Payloads
import proofs.«151035_g43508018709279_pilotgen1_583_14_alg».proof.Proof.Spec

set_option maxRecDepth 16384

noncomputable section

namespace Cert.KernelIdeal.Lora

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_off' : (![0, 0] : Fin 2 → Nat) = fun _ => 0 := funext fun a => by fin_cases a <;> rfl

/-- The block indices of the four windows at a point, decided over the 64 points: the activations sit on the output's
    row block, the weight's ROW block and the bias's COLUMN block are the output's column block, both in 0 … 7; all
    other indices are 0. -/
theorem denseIdx : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 7
    ∧ win1_3.index t (1 : Fin 2) ≤ 7 :=
  (by decide +kernel : ∀ t : Fin grid1.N, _)

/-- Every block (I, J) is some point's. -/
theorem denseOnto : ∀ (k0 k1 : Fin 8), ∃ t : Fin cfg1.N, win1_3.index t (0 : Fin 2) = k0.val ∧ win1_3.index t (1 : Fin 2) = k1.val :=
  (by decide +kernel : ∀ (k0 k1 : Fin 8), ∃ t : Fin grid1.N, win1_3.index t (0 : Fin 2) = k0.val ∧ win1_3.index t (1 : Fin 2) = k1.val)

/-- Entry (p, q) of the output block at point t sits at row 1024·I + p, column 512·J + q of the array. -/
theorem denseEmb (t : Fin cfg1.N) (p : Fin 1024) (q : Fin 512) (h0 : win1_3.index t (0 : Fin 2) * 1024 + p.val < 8192)
    (h1 : win1_3.index t (1 : Fin 2) * 512 + q.val < 4096) :
    ((cfg1.win 3).blk t).view.emb (ix2 p q)
      = (ix2 ⟨win1_3.index t (0 : Fin 2) * 1024 + p.val, h0⟩ ⟨win1_3.index t (1 : Fin 2) * 512 + q.val, h1⟩ : S8192x4096.Idx) := by
  refine funext fun a => Fin.ext ?_
  match a with
  | ⟨0, _⟩ => show win1_3.index t (0 : Fin 2) * 1024 + 1 * p.val = win1_3.index t (0 : Fin 2) * 1024 + p.val; omega
  | ⟨1, _⟩ => show win1_3.index t (1 : Fin 2) * 512 + 1 * q.val = win1_3.index t (1 : Fin 2) * 512 + q.val; omega

/-- The block of activations at point t, read at (p, d). -/
theorem denseReadX (c : Dev nD) (t : Fin cfg1.N) (p : Fin 1024) (h0 : win1_3.index t (0 : Fin 2) * 1024 + p.val < 8192) (d : Fin 4096) :
    iblk1 V c 0 t (ix2 p d) = V c main_v0 (ix2 ⟨win1_3.index t (0 : Fin 2) * 1024 + p.val, h0⟩ d) := by
  obtain ⟨e00, e01, e10, e11, e20, e21, e30, e31⟩ := denseIdx t
  show V c main_v0 (((cfg1.win 0).blk t).view.emb (ix2 p d)) = _
  refine congrArg _ (funext fun a => Fin.ext ?_)
  match a with
  | ⟨0, _⟩ => show win1_0.index t (0 : Fin 2) * 1024 + 1 * p.val = win1_3.index t (0 : Fin 2) * 1024 + p.val; omega
  | ⟨1, _⟩ => show win1_0.index t (1 : Fin 2) * 4096 + 1 * d.val = d.val; omega

/-- The block of the folded weight at point t, read at (q, d). -/
theorem denseReadW (c : Dev nD) (t : Fin cfg1.N) (q : Fin 512) (h1 : win1_3.index t (1 : Fin 2) * 512 + q.val < 4096) (d : Fin 4096) :
    iblk1 V c 1 t (ix2 q d) = V c main_v2 (ix2 ⟨win1_3.index t (1 : Fin 2) * 512 + q.val, h1⟩ d) := by
  obtain ⟨e00, e01, e10, e11, e20, e21, e30, e31⟩ := denseIdx t
  show V c main_v2 (((cfg1.win 1).blk t).view.emb (ix2 q d)) = _
  refine congrArg _ (funext fun a => Fin.ext ?_)
  match a with
  | ⟨0, _⟩ => show win1_1.index t (0 : Fin 2) * 512 + 1 * q.val = win1_3.index t (1 : Fin 2) * 512 + q.val; omega
  | ⟨1, _⟩ => show win1_1.index t (1 : Fin 2) * 4096 + 1 * d.val = d.val; omega

/-- The block of the bias row at point t, read at (0, q). -/
theorem denseReadBias (c : Dev nD) (t : Fin cfg1.N) (q : Fin 512) (h1 : win1_3.index t (1 : Fin 2) * 512 + q.val < 4096) :
    iblk1 V c 2 t (ix2 (0 : Fin 1) q) = V c main_v1 (ix2 (0 : Fin 1) ⟨win1_3.index t (1 : Fin 2) * 512 + q.val, h1⟩) := by
  obtain ⟨e00, e01, e10, e11, e20, e21, e30, e31⟩ := denseIdx t
  show V c main_v1 (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 512 + 1 * q.val = win1_3.index t (1 : Fin 2) * 512 + q.val; omega

/-- What the body stores at point t is that point's block of the dense layer. -/
theorem denseBlock (c : Dev nD) (t : Fin cfg1.N) :
    (k1_pay1 (F := Ideal) (iblk1 V c 0 t) (iblk1 V c 1 t) (iblk1 V c 2 t) : S1024x512.Idx → EReal)
      = fun j => Cert.Lora.dense (V c main_v0) (V c main_v2) (V c main_v1) (((cfg1.win 3).blk t).view.emb j) := by
  funext j
  obtain ⟨p, q, rfl⟩ : ∃ (p : Fin 1024) (q : Fin 512), j = ix2 p q := ⟨j 0, j 1, eq_ix2 j⟩
  obtain ⟨e00, e01, e10, e11, e20, e21, e30, e31⟩ := denseIdx t
  have h0 : win1_3.index t (0 : Fin 2) * 1024 + p.val < 8192 := by have := p.isLt; omega
  have h1 : win1_3.index t (1 : Fin 2) * 512 + q.val < 4096 := by have := q.isLt; omega
  refine (densePayload_apply (iblk1 V c 0 t) (iblk1 V c 1 t) (iblk1 V c 2 t) p q).trans ?_
  rw [denseEmb t p q h0 h1, Cert.Lora.dense_ix2]
  unfold Cert.Lora.denseAt
  rw [denseReadBias V c t q h1]
  refine congrArg (fun s => s + _) (Finset.sum_congr rfl fun d _ => ?_)
  rw [denseReadX V c t p h0 d, denseReadW V c t q h1 d]

/-- WHAT POINT t WRITES BACK is block t of the dense layer of the arrays the region found. -/
theorem denseFlushed (c : Dev nD) (t : Fin cfg1.N) :
    (dat1 V c).flushed 3 t = ((cfg1.win 3).blk t).view.read (Elt Ideal)
      (Cert.Lora.dense (V c main_v0) (V c main_v2) (V c main_v1)) := by
  show (cfg1.win 3).cut (grid1.coords t) ((dat1 V c).after 3 t) = _
  rw [after1_3]
  unfold out1_3
  rw [View.canon_unit_zero zero_off']
  simp only [View.ld_unit_zero (S := S1024x4096) zero_off', View.ld_unit_zero (S := S512x4096) zero_off',
    View.ld_unit_zero (S := S1x512) zero_off']
  exact denseBlock V c t

/-- An index of the result array is in point t's block iff each coordinate is in the block's range on its axis. -/
theorem denseMem (t : Fin cfg1.N) (i : S8192x4096.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v3).slice (win1_3.rect t)).set ↔ _
  rw [View.set_slice_whole, Rect.mem_set_unit]
  exact Iff.rfl

/-- The 64 blocks tile the array: entry (i₀, i₁) is in block (i₀ / 1024, i₁ / 512). -/
theorem denseCover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht0, ht1⟩ := denseOnto ⟨(i 0).val / 1024, by omega⟩ ⟨(i 1).val / 512, by omega⟩
  have ht0' : win1_3.index t (0 : Fin 2) = (i 0).val / 1024 := ht0
  have ht1' : win1_3.index t (1 : Fin 2) = (i 1).val / 512 := ht1
  refine ⟨t, flush1_3 t, ?_⟩
  rw [denseMem]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 512 ≤ (i 1).val ∧ (i 1).val < win1_3.index t (1 : Fin 2) * 512 + 512
    omega

/-- THE RESULT ARRAY after the second region is the dense layer of the arrays the region found. -/
theorem denseArray (c : Dev nD) :
    (dat1 V c).arrAt 3 cfg1.N = Cert.Lora.dense (V c main_v0) (V c main_v2) (V c main_v1) :=
  (dat1 V c).arrAt_eq_of_cover 3 _ (fun t _ => denseFlushed V c t) denseCover

end Cert.KernelIdeal.Lora

end
-- ==== Proof.Flatten.lean ====
/-
  The reshapes around the two kernel regions, read away.

  The program flattens the activations [4, 2048, 4096] to rows [8192, 4096] (row = 2048·b + s), makes the bias a
  single row [1, 4096], runs the dense layer on the flattened rows with the folded weight, and reshapes the result back
  to [4, 2048, 4096]. Entry (b, s, o) of the reshaped result is entry (2048·b + s, o) of the dense layer, whose row
  2048·b + s of the flattened activations is x[b, s, ·], and whose bias entry (0, o) is β[o]: so the whole is the layer
  in its folded form.
-/
import proofs.«151035_g43508018709279_pilotgen1_583_14_alg».proof.Proof.Spec
import Idealize.ShloMosaic.Lib.Pipeline.Value
import Idealize.ShloMosaic.Lib.ValueLayout

noncomputable section

namespace Cert.Lora

open Idealize.ShloMosaic Idealize.ShloMosaic.ValueIdx

/-- The dense layer on the flattened rows, with the folded weight and the bias as one row, reshaped back, is the layer
    in its folded form. -/
theorem unflatten_dense (x : (⟨3, ![4, 2048, 4096]⟩ : Shape).Idx → EReal) (W : (⟨2, ![4096, 4096]⟩ : Shape).Idx → EReal)
    (β : (⟨1, ![4096]⟩ : Shape).Idx → EReal) (A : (⟨2, ![16, 4096]⟩ : Shape).Idx → EReal)
    (B : (⟨2, ![4096, 16]⟩ : Shape).Idx → EReal)
    (hX : (⟨3, ![4, 2048, 4096]⟩ : Shape).ShapeCasts ⟨2, ![8192, 4096]⟩)
    (hβ : (⟨1, ![4096]⟩ : Shape).ShapeCasts ⟨2, ![1, 4096]⟩)
    (hO : (⟨2, ![8192, 4096]⟩ : Shape).ShapeCasts ⟨3, ![4, 2048, 4096]⟩) :
    shapeCast ⟨3, ![4, 2048, 4096]⟩
        (dense (shapeCast ⟨2, ![8192, 4096]⟩ x hX) (foldedWeight W B A) (shapeCast ⟨2, ![1, 4096]⟩ β hβ)) hO
      = lora x W β A B := by
  funext i
  obtain ⟨b, s, o, rfl⟩ : ∃ (b : Fin 4) (s : Fin 2048) (o : Fin 4096), i = ix3 b s o := ⟨i 0, i 1, i 2, eq_ix3 i⟩
  have hrow : b.val * 2048 + s.val < 8192 := by have := b.isLt; have := s.isLt; omega
  rw [lora_ix3]
  refine (shapeCast_apply _ hO (ix3 b s o) (ix2 ⟨b.val * 2048 + s.val, hrow⟩ o) (by
    rw [Shape.rowMajor_val_two, Shape.rowMajor_val_three]
    show (b.val * 2048 + s.val) * 4096 + o.val = (b.val * 2048 + s.val) * 4096 + o.val
    rfl)).trans ?_
  rw [dense_ix2]
  unfold denseAt loraAt
  rw [shapeCast_a_1a_apply β hβ (0 : Fin 1) o]
  refine congrArg (fun t => t + β (ix1 o)) (Finset.sum_congr rfl fun d _ => ?_)
  rw [foldedWeight_ix2, shapeCast_apply x hX (ix2 ⟨b.val * 2048 + s.val, hrow⟩ d) (ix3 b s d) (by
    rw [Shape.rowMajor_val_two, Shape.rowMajor_val_three]
    show (b.val * 2048 + s.val) * 4096 + d.val = (b.val * 2048 + s.val) * 4096 + d.val
    rfl)]

end Cert.Lora

end
-- ==== Proof.KernelValue.lean ====
/-
  The kernel program's result, as one function of its five arguments.

  Following the program: the two reshapes give the flattened activations and the bias row; the first region leaves
  the folded weight W + (B·A)·2 of the (unchanged) arguments; the second region, entered with those three arrays,
  leaves the dense layer on the flattened rows; the last reshape gives the result. Read at an entry this is the
  low-rank-adapted layer in its folded form.
-/
import proofs.«151035_g43508018709279_pilotgen1_583_14_alg».proof.Proof.RunValue
import proofs.«151035_g43508018709279_pilotgen1_583_14_alg».proof.Proof.FoldRegion
import proofs.«151035_g43508018709279_pilotgen1_583_14_alg».proof.Proof.DenseRegion
import proofs.«151035_g43508018709279_pilotgen1_583_14_alg».proof.Proof.Flatten
import Idealize.ShloMosaic.Lib.StableHlo.Run

set_option maxRecDepth 16384

noncomputable section

namespace Cert.KernelIdeal.Lora

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## What the first region finds: the three arguments as launched -/

theorem entryW (c : Dev nD) : V1 m ρ c main_arg1 = m ((c : Thread nD τ).loc main_arg1) := by
  show StableHlo.after hostOps0 (W0 m ρ c) (Proc.devRef .tc main_arg1) = _
  after_results
  try rfl
theorem entryB (c : Dev nD) : V1 m ρ c main_arg4 = m ((c : Thread nD τ).loc main_arg4) := by
  show StableHlo.after hostOps0 (W0 m ρ c) (Proc.devRef .tc main_arg4) = _
  after_results
  try rfl
theorem entryA (c : Dev nD) : V1 m ρ c main_arg3 = m ((c : Thread nD τ).loc main_arg3) := by
  show StableHlo.after hostOps0 (W0 m ρ c) (Proc.devRef .tc main_arg3) = _
  after_results
  try rfl

/-! ## What the second region finds -/

/-- The flattened activations: untouched by the first region, the reshape of the first argument. -/
theorem entryX (c : Dev nD) :
    V2 m ρ c main_v0 = shapeCast S8192x4096 (m ((c : Thread nD τ).loc main_arg0)) Facts₀.shapeCasts_S4x2048x4096_S8192x4096 := by
  refine (W2_of_ne m ρ c main_v0 (by decide)).trans ?_
  show StableHlo.after hostOps0 (W0 m ρ c) (Proc.devRef .tc main_v0) = _
  after_results
  try rfl
/-- The bias row: untouched by the first region, the reshape of the third argument. -/
theorem entryBias (c : Dev nD) :
    V2 m ρ c main_v1 = shapeCast S1x4096 (m ((c : Thread nD τ).loc main_arg2)) Facts₀.shapeCasts_S4096_S1x4096 := by
  refine (W2_of_ne m ρ c main_v1 (by decide)).trans ?_
  show StableHlo.after hostOps0 (W0 m ρ c) (Proc.devRef .tc main_v1) = _
  after_results
  try rfl
/-- The folded weight: what the first region left, of the arguments as launched. -/
theorem entryFolded (c : Dev nD) :
    V2 m ρ c main_v2 = Cert.Lora.foldedWeight (m ((c : Thread nD τ).loc main_arg1)) (m ((c : Thread nD τ).loc main_arg4))
      (m ((c : Thread nD τ).loc main_arg3)) := by
  refine (W2_arr m ρ c 3).trans ((foldedArray (V1 m ρ) c).trans ?_)
  rw [entryW m ρ c, entryB m ρ c, entryA m ρ c]

/-! ## The result -/

/-- What the second region leaves in its result array. -/
theorem denseResult (c : Dev nD) :
    W3 m ρ c (Proc.devRef .tc main_v3)
      = Cert.Lora.dense (shapeCast S8192x4096 (m ((c : Thread nD τ).loc main_arg0)) Facts₀.shapeCasts_S4x2048x4096_S8192x4096)
          (Cert.Lora.foldedWeight (m ((c : Thread nD τ).loc main_arg1)) (m ((c : Thread nD τ).loc main_arg4))
            (m ((c : Thread nD τ).loc main_arg3)))
          (shapeCast S1x4096 (m ((c : Thread nD τ).loc main_arg2)) Facts₀.shapeCasts_S4096_S1x4096) := by
  refine (W3_arr m ρ c 3).trans ((denseArray (V2 m ρ) c).trans ?_)
  rw [entryX m ρ c, entryFolded m ρ c, entryBias m ρ c]

/-- The result buffer at the end of the program is the layer, in its folded form, of the arguments as launched. -/
theorem result_eq (c : Dev nD) :
    W4 m ρ c (Proc.devRef .tc main_v4)
      = Cert.Lora.lora (m ((c : Thread nD τ).loc main_arg0)) (m ((c : Thread nD τ).loc main_arg1))
          (m ((c : Thread nD τ).loc main_arg2)) (m ((c : Thread nD τ).loc main_arg3)) (m ((c : Thread nD τ).loc main_arg4)) := by
  refine Eq.trans (b := shapeCast S4x2048x4096 (W3 m ρ c (Proc.devRef .tc main_v3)) Facts₀.shapeCasts_S8192x4096_S4x2048x4096) ?_ ?_
  · show StableHlo.after hostOps2 (W3 m ρ c) (Proc.devRef .tc main_v4) = _
    after_results
    try rfl
  · rw [denseResult m ρ c]
    exact Cert.Lora.unflatten_dense _ _ _ _ _ _ _ _

/-- THE KERNEL PROGRAM'S RUN, with the result named: every weakly fair execution terminates, nothing faulting, the
    result buffer at the layer's folded form of the arguments and the arguments unchanged. -/
theorem run_lora : θ_run defs (onTc (τ := τ) (main (F := Ideal))) ⟨m, fun _ => 0, ρ⟩ (fun r => ∀ c : Dev nD,
      r.2.mem ((c.tc : Thread nD τ).loc main_v4)
        = Cert.Lora.lora (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩)
    (Cert.KernelIdeal.GenV.run_named m ρ)

end Cert.KernelIdeal.Lora

end
-- ==== Proof.RefValue.lean ====
/-
  The reference, read at one entry, and why it is the folded form for real data.

  At (b, s, o) the reference computes
      (Σ_d x[b, s, d] · W[o, d] + β[o]) + (Σ_r (Σ_d x[b, s, d] · A[r, d]) · B[o, r]) · 2:
  the base product with the bias broadcast over (b, s), then the two skinny products and the scale. By the law of
  the specification this is Σ_d x[b, s, d] · (W[o, d] + (Σ_r B[o, r] · A[r, d]) · 2) + β[o] when all data are real.
-/
import proofs.«151035_g43508018709279_pilotgen1_583_14_alg».proof.Proof.Gen.ReferenceIdeal.Read
import proofs.«151035_g43508018709279_pilotgen1_583_14_alg».proof.Proof.Spec
import Idealize.ShloMosaic.Lib.ValueIdx
import Idealize.ShloMosaic.PureOps.Ideal.Laws

noncomputable section

namespace Cert.ReferenceIdeal.Lora

open Cert.ReferenceIdeal Cert.ReferenceIdeal.Gen Cert.ReferenceIdeal.Read Idealize.ShloMosaic Idealize.ShloMosaic.ValueIdx

/-! ## The operand indices of the reference's operations, in coordinates -/

theorem baseL (b : Fin 4) (s : Fin 2048) (o : Fin 4096) (k : Fin 4096) : lidx_main_v0 (ix3 b s o) k = ix3 b s k :=
  funext fun a => by match a with | ⟨0, _⟩ => rfl | ⟨1, _⟩ => rfl | ⟨2, _⟩ => rfl
theorem baseR (b : Fin 4) (s : Fin 2048) (o : Fin 4096) (k : Fin 4096) : ridx_main_v0 (ix3 b s o) k = ix2 o k :=
  funext fun a => by match a with | ⟨0, _⟩ => rfl | ⟨1, _⟩ => rfl
theorem biasIdx (b : Fin 4) (s : Fin 2048) (o : Fin 4096) : idx_main_v1 (idx_main_v2 (ix3 b s o)) = ix1 o :=
  funext fun a => by match a with | ⟨0, _⟩ => rfl
theorem upL (b : Fin 4) (s : Fin 2048) (o : Fin 4096) (r : Fin 16) : lidx_main_v5 (ix3 b s o) r = ix3 b s r :=
  funext fun a => by match a with | ⟨0, _⟩ => rfl | ⟨1, _⟩ => rfl | ⟨2, _⟩ => rfl
theorem upR (b : Fin 4) (s : Fin 2048) (o : Fin 4096) (r : Fin 16) : ridx_main_v5 (ix3 b s o) r = ix2 o r :=
  funext fun a => by match a with | ⟨0, _⟩ => rfl | ⟨1, _⟩ => rfl
theorem downL (b : Fin 4) (s : Fin 2048) (r : Fin 16) (k : Fin 4096) : lidx_main_v4 (ix3 b s r) k = ix3 b s k :=
  funext fun a => by match a with | ⟨0, _⟩ => rfl | ⟨1, _⟩ => rfl | ⟨2, _⟩ => rfl
theorem downR (b : Fin 4) (s : Fin 2048) (r : Fin 16) (k : Fin 4096) : ridx_main_v4 (ix3 b s r) k = ix2 r k :=
  funext fun a => by match a with | ⟨0, _⟩ => rfl | ⟨1, _⟩ => rfl

/-- The reference's result at (b, s, o). -/
theorem ref_at (x0 : FVec Ideal S4x2048x4096 .f32) (x1 : FVec Ideal S4096x4096 .f32) (x2 : FVec Ideal S4096 .f32)
    (x3 : FVec Ideal S16x4096 .f32) (x4 : FVec Ideal S4096x16 .f32) (b : Fin 4) (s : Fin 2048) (o : Fin 4096) :
    val_main_v8 (F := Ideal) x0 x1 x2 x3 x4 (ix3 b s o)
      = ((∑ d : Fin 4096, x0 (ix3 b s d) * x1 (ix2 o d)) + x2 (ix1 o))
        + (∑ r : Fin 16, (∑ d : Fin 4096, x0 (ix3 b s d) * x3 (ix2 r d)) * x4 (ix2 o r)) * Ideal.ofBits .f32 0x40000000#32 := by
  rw [val_main_v8_apply, val_main_v3_apply, val_main_v7_apply, val_main_v0_apply, val_main_v2_apply, val_main_v1_apply,
    val_main_v5_apply, val_main_v6_apply, val_main_cst_apply]
  simp only [val_main_v4_apply, baseL, baseR, biasIdx, upL, upR, downL, downR, Ideal.addf_def, Ideal.mulf_def, Ideal.ofBits_def]

/-- For real data the reference's result array is the layer in its folded form. -/
theorem ref_eq_lora (x0 : FVec Ideal S4x2048x4096 .f32) (x1 : FVec Ideal S4096x4096 .f32) (x2 : FVec Ideal S4096 .f32)
    (x3 : FVec Ideal S16x4096 .f32) (x4 : FVec Ideal S4096x16 .f32)
    (h0 : ∀ i, ∃ v : ℝ, x0 i = v) (h1 : ∀ i, ∃ v : ℝ, x1 i = v) (h2 : ∀ i, ∃ v : ℝ, x2 i = v)
    (h3 : ∀ i, ∃ v : ℝ, x3 i = v) (h4 : ∀ i, ∃ v : ℝ, x4 i = v) :
    val_main_v8 (F := Ideal) x0 x1 x2 x3 x4 = Cert.Lora.lora x0 x1 x2 x3 x4 := by
  funext i
  obtain ⟨b, s, o, rfl⟩ : ∃ (b : Fin 4) (s : Fin 2048) (o : Fin 4096), i = ix3 b s o := ⟨i 0, i 1, i 2, eq_ix3 i⟩
  rw [ref_at, Cert.Lora.lora_ix3]
  unfold Cert.Lora.loraAt Cert.Lora.foldedWeightAt
  exact (Cert.Lora.fold_law (fun d => x0 (ix3 b s d)) (fun d => x1 (ix2 o d)) (fun r d => x3 (ix2 r d))
    (fun r => x4 (ix2 o r)) (x2 (ix1 o)) (Ideal.ofBits .f32 0x40000000#32)
    (fun d => h0 _) (fun d => h1 _) (fun r d => h3 _) (fun r => h4 _) (h2 _) ⟨2, Cert.Lora.scale_eq⟩).symm

end Cert.ReferenceIdeal.Lora

end
-- ==== Proof.Finite.lean ====
/-
  The precondition, read back: every entry of every input is a real number.

  The precondition says, of each of the five input arrays, that |x| < +∞ at every entry, and conjoins the five
  statements. An extended real whose absolute value is below +∞ is neither +∞ nor −∞ (|−∞| = +∞ too), so it is a
  real number; that is all the value proof uses of the precondition.
-/
import proofs.«151035_g43508018709279_pilotgen1_583_14_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Lora

open Cert.Pre_finite_inputs Cert.Pre_finite_inputs.Gen Idealize.ShloMosaic

/-- The rank-0 shape has one index. -/
instance scalarIdx_subsingleton : Subsingleton S_.Idx := ⟨fun a b => funext fun d => d.elim0⟩

/-- The f32 word the precondition compares against denotes +∞. -/
theorem inf_word : Ideal.ofBits .f32 0x7F800000#32 = ⊤ := by simp [Ideal.ofBits, Ideal.ieee]

/-- An extended real whose absolute value max(x, −x) is below +∞ is a real number. -/
theorem real_of_abs_lt_top (x : EReal) (h : Ideal.cmp .olt (max x (-x)) ⊤ = 1#1) : ∃ v : ℝ, x = v := by
  induction x using EReal.rec with
  | bot => exfalso; revert h; simp [Ideal.cmp]
  | coe r => exact ⟨r, rfl⟩
  | top => exfalso; revert h; simp [Ideal.cmp]

/-- One entry of one array: the comparison flag |x| < +∞ being set says the entry is real. -/
theorem entry_real {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ v : ℝ, x i = v := by
  apply real_of_abs_lt_top
  rw [← inf_word]
  exact h

/-- The precondition holding says every entry of each of the five inputs is real. -/
theorem real_inputs (a0 : FVec Ideal S4x2048x4096 .f32) (a1 : FVec Ideal S4096x4096 .f32) (a2 : FVec Ideal S4096 .f32)
    (a3 : FVec Ideal S16x4096 .f32) (a4 : FVec Ideal S4096x16 .f32)
    (h : fn (F := Ideal) a0 a1 a2 a3 a4 = fun _ => 1#1) :
    (∀ i, ∃ v : ℝ, a0 i = v) ∧ (∀ i, ∃ v : ℝ, a1 i = v) ∧ (∀ i, ∃ v : ℝ, a2 i = v)
      ∧ (∀ i, ∃ v : ℝ, a3 i = v) ∧ (∀ i, ∃ v : ℝ, a4 i = v) := by
  have h0 := congrFun h ValueIdx.ix0
  dsimp only [fn, fn_part1] at h0
  obtain ⟨h0123, r4⟩ := IntOp.andi_eq_one.1 h0
  obtain ⟨h012, r3⟩ := IntOp.andi_eq_one.1 h0123
  obtain ⟨h01, r2⟩ := IntOp.andi_eq_one.1 h012
  obtain ⟨r0, r1⟩ := IntOp.andi_eq_one.1 h01
  exact ⟨fun i => entry_real _ a0 i (Host.reduce_andi_all _ _ _ _ _ r0 i),
    fun i => entry_real _ a1 i (Host.reduce_andi_all _ _ _ _ _ r1 i),
    fun i => entry_real _ a2 i (Host.reduce_andi_all _ _ _ _ _ r2 i),
    fun i => entry_real _ a3 i (Host.reduce_andi_all _ _ _ _ _ r3 i),
    fun i => entry_real _ a4 i (Host.reduce_andi_all _ _ _ _ _ r4 i)⟩

end Cert.Pre_finite_inputs.Lora

end
-- ==== Proof.lean ====
/-
  A linear layer with a rank-16 update, y = x·Wᵀ + β + 2·(x·Aᵀ)·Bᵀ, computed two ways.

  The kernel folds the update into the weight first, W' = W + (B·A)·2 (one pass over W, 8 row blocks), then computes
  x·W'ᵀ + β on the flattened rows (8 × 8 blocks). The reference computes the base product, adds the bias, and adds twice
  the two skinny products. Over the extended reals the two agree when the data are real (the law is distributivity and a
  swap of two finite sums, which fail at infinities), and the precondition says exactly that: every input entry is finite.

  The pieces: the specification and the law (Proof/Spec.lean); the kernel's two products and its bodies' stored values
  at an entry (Proof/MatmulAt.lean, Proof/Payloads.lean); each region's result array as one function of the arrays it
  found (Proof/FoldRegion.lean, Proof/DenseRegion.lean); the reshapes read away (Proof/Flatten.lean); the kernel
  program's run with its result named (Proof/RunValue.lean, Proof/KernelValue.lean); the reference at an entry
  (Proof/RefValue.lean); the precondition read as "every entry is real" (Proof/Finite.lean).
  The idealized kernel is the kernel's own text read over the extended reals (no operation was rewritten), so there is
  nothing to show for that conjunct.
-/
import proofs.«151035_g43508018709279_pilotgen1_583_14_alg».proof.Defs
import proofs.«151035_g43508018709279_pilotgen1_583_14_alg».proof.Proof.Gen.Kernel
import proofs.«151035_g43508018709279_pilotgen1_583_14_alg».proof.Proof.Gen.Kernel.Skeleton
import proofs.«151035_g43508018709279_pilotgen1_583_14_alg».proof.Proof.Gen.Kernel.Launch
import proofs.«151035_g43508018709279_pilotgen1_583_14_alg».proof.Proof.Gen.Kernel.Points
import proofs.«151035_g43508018709279_pilotgen1_583_14_alg».proof.Proof.Gen.Kernel.Frame
import proofs.«151035_g43508018709279_pilotgen1_583_14_alg».proof.Proof.Gen.KernelIdeal
import proofs.«151035_g43508018709279_pilotgen1_583_14_alg».proof.Proof.Gen.KernelIdeal.Skeleton
import proofs.«151035_g43508018709279_pilotgen1_583_14_alg».proof.Proof.Gen.KernelIdeal.Launch
import proofs.«151035_g43508018709279_pilotgen1_583_14_alg».proof.Proof.Gen.KernelIdeal.Points
import proofs.«151035_g43508018709279_pilotgen1_583_14_alg».proof.Proof.Gen.KernelIdeal.Frame
import proofs.«151035_g43508018709279_pilotgen1_583_14_alg».proof.Proof.Gen.ReferenceIdeal
import proofs.«151035_g43508018709279_pilotgen1_583_14_alg».proof.Proof.Gen.ReferenceIdeal.Run
import proofs.«151035_g43508018709279_pilotgen1_583_14_alg».proof.Proof.Gen.ReferenceIdeal.Read
import proofs.«151035_g43508018709279_pilotgen1_583_14_alg».proof.Proof.Gen.Pre_finite_inputs
import proofs.«151035_g43508018709279_pilotgen1_583_14_alg».proof.Proof.KernelValue
import proofs.«151035_g43508018709279_pilotgen1_583_14_alg».proof.Proof.RefValue
import proofs.«151035_g43508018709279_pilotgen1_583_14_alg».proof.Proof.Finite
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- The same program read over the extended reals runs and leaves its arguments as launched. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on the five inputs, all of whose entries are finite, both programs end with the layer's
    value in its folded form: the kernel because that is what it computes, the reference by the law for real data. -/
theorem algebraic : Cert.algebraic_KernelIdeal_ReferenceIdeal := by
  intro m ρ m' ρ' hpre hagree
  refine ⟨_, Cert.KernelIdeal.Lora.run_lora m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  obtain ⟨h0, h1, h2, h3, h4⟩ := Cert.Pre_finite_inputs.Lora.real_inputs _ _ _ _ _ (hpre c)
  exact Cert.ReferenceIdeal.Lora.ref_eq_lora _ _ _ _ _ h0 h1 h2 h3 h4

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
